-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4x4096x16x16 : Shape := ⟨4, ![4, 4096, 16, 16]⟩
abbrev S3072x1024 : Shape := ⟨2, ![3072, 1024]⟩
abbrev S3072 : Shape := ⟨1, ![3072]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4x4096x16x16 : S_.BroadcastsInDim S4x4096x16x16 (![] : Fin 0 → Fin S4x4096x16x16.rank)
  reducesTo_S4x4096x16x16_S_d0_1_2_3 : S4x4096x16x16.ReducesTo [0, 1, 2, 3] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn_part1 {F : FTy → Type} [FloatOps F] (main_arg4 : FVec F S3072x1024 .f32) (main_arg5 : FVec F S3072 .f32) (main_v13 : IVec S_ 1) (main_v16 : IVec S4x4096x16x16 1) : IVec S_ 1 :=
  let main_c_5 : IVec S_ 1 := constantI S_ 1 1#1
  let main_v17 : IVec S_ 1 := (fun x v => Host.reduce IntOp.andi x v reducesTo_S4x4096x16x16_S_d0_1_2_3 h_S_) main_v16 main_c_5
  let main_v18 : IVec S_ 1 := andi main_v13 main_v17
  let main_v19 : FVec F S3072x1024 .f32 := Host.absf main_arg4
  let main_cst_6 : FVec F S_ .f32 := constant S_ .f32 0x7F800000#32
  let main_v20 : FVec F S3072x1024 .f32 := broadcastInDim S3072x1024 ![] bcast_S_S3072x1024 main_cst_6
  let main_v21 : IVec S3072x1024 1 := cmpf .olt main_v19 main_v20
  let main_c_7 : IVec S_ 1 := constantI S_ 1 1#1
  let main_v22 : IVec S_ 1 := (fun x v => Host.reduce IntOp.andi x v reducesTo_S3072x1024_S_d0_1 h_S_) main_v21 main_c_7
  let main_v23 : IVec S_ 1 := andi main_v18 main_v22
  let main_v24 : FVec F S3072 .f32 := Host.absf main_arg5
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  main_v28

def fn {F : FTy → Type} [FloatOps F] (main_arg0 : FVec F S4x4096x1024 .f32) (main_arg1 : FVec F S4x4096x1024 .f32) (main_arg2 : FVec F S4x4096x1024 .f32) (main_arg3 : FVec F S4x4096x16x16 .f32) (main_arg4 : FVec F S3072x1024 .f32) (main_arg5 : FVec F S3072 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S4x4096x16x16 .f32 := Host.absf main_arg3
  let main_cst_4 : FVec F S_ .f32 := constant S_ .f32 0x7F800000#32
  let main_v15 : FVec F S4x4096x16x16 .f32 := broadcastInDim S4x4096x16x16 ![] bcast_S_S4x4096x16x16 main_cst_4
  let main_v16 : IVec S4x4096x16x16 1 := cmpf .olt main_v14 main_v15
  fn_part1 (F := F) main_arg4 main_arg5 main_v13 main_v16
-- ==== Kernel.lean ====
abbrev S4x4096x1024 : Shape := ⟨3, ![4, 4096, 1024]⟩
abbrev S4x4096x16x16 : Shape := ⟨4, ![4, 4096, 16, 16]⟩
abbrev S3072x1024 : Shape := ⟨2, ![3072, 1024]⟩
abbrev S3072 : Shape := ⟨1, ![3072]⟩
abbrev S1024x3072 : Shape := ⟨2, ![1024, 3072]⟩
abbrev S1x3072 : Shape := ⟨2, ![1, 3072]⟩
abbrev S1x128x1024 : Shape := ⟨3, ![1, 128, 1024]⟩
abbrev S1x128x16x16 : Shape := ⟨4, ![1, 128, 16, 16]⟩
abbrev S128x1024 : Shape := ⟨2, ![128, 1024]⟩
abbrev S128x3072 : Shape := ⟨2, ![128, 3072]⟩
abbrev S128x16x64 : Shape := ⟨3, ![128, 16, 64]⟩
abbrev S128x16x1x64 : Shape := ⟨4, ![128, 16, 1, 64]⟩
abbrev S128x1x16x64 : Shape := ⟨4, ![128, 1, 16, 64]⟩
abbrev S128x16x16x64 : Shape := ⟨4, ![128, 16, 16, 64]⟩
abbrev S128x16x16 : Shape := ⟨3, ![128, 16, 16]⟩
abbrev S128x16 : Shape := ⟨2, ![128, 16]⟩
abbrev S128x16x1 : Shape := ⟨3, ![128, 16, 1]⟩
abbrev S128x16x16x1 : Shape := ⟨4, ![128, 16, 16, 1]⟩

abbrev nBuf : Space → Nat
  | .hbm => 10
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x16x16, .f32⟩
  | .hbm, ⟨4, _⟩ => ⟨S3072x1024, .f32⟩
  | .hbm, ⟨5, _⟩ => ⟨S3072, .f32⟩
  | .hbm, ⟨6, _⟩ => ⟨S1024x3072, .f32⟩
  | .hbm, ⟨7, _⟩ => ⟨S1024x3072, .bf16⟩
  | .hbm, ⟨8, _⟩ => ⟨S1x3072, .f32⟩
  | .hbm, ⟨9, _⟩ => ⟨S4x4096x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x16x16, .f32⟩
  | .local _ .vmem, ⟨3, _⟩ => ⟨S1x128x16x16, .f32⟩
  | .local _ .vmem, ⟨4, _⟩ => ⟨S1024x3072, .bf16⟩
  | .local _ .vmem, ⟨5, _⟩ => ⟨S1x3072, .f32⟩
  | .local _ .vmem, ⟨6, _⟩ => ⟨S1x128x1024, .f32⟩
  | .local _ .vmem, ⟨7, _⟩ => ⟨S1x128x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S3072x1024_S1024x3072_1_0 : S3072x1024.Transposes [1, 0] S1024x3072
  bitsLt_bf16_f32 : FTy.bits .bf16 < FTy.bits .f32
  shapeCasts_S3072_S1x3072 : S3072.ShapeCasts S1x3072
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S128x3072 : S1x3072.Broadcasts S128x3072
  slices_S128x3072_o0_0_S128x1024 : S128x3072.Slices ![0, 0] S128x1024
  shapeCasts_S128x1024_S128x16x64 : S128x1024.ShapeCasts S128x16x64
  slices_S128x3072_o0_1024_S128x1024 : S128x3072.Slices ![0, 1024] S128x1024
  slices_S128x3072_o0_2048_S128x1024 : S128x3072.Slices ![0, 2048] S128x1024
  shapeCasts_S128x16x64_S128x16x1x64 : S128x16x64.ShapeCasts S128x16x1x64
  shapeCasts_S128x16x64_S128x1x16x64 : S128x16x64.ShapeCasts S128x1x16x64
  broadcasts_S128x16x1x64_S128x16x16x64 : S128x16x1x64.Broadcasts S128x16x16x64
  broadcasts_S128x1x16x64_S128x16x16x64 : S128x1x16x64.Broadcasts S128x16x16x64
  reduces_S128x16x16x64_S128x16x16 : S128x16x16x64.Reduces [3] S128x16x16
  inb_S1x128x16x16_S1x128x16x16_0_0_0_0 : ∀ a, (![0, 0, 0, 0] : Fin 4 → Nat) a + S1x128x16x16.size a ≤ S1x128x16x16.size a
  h_S1x128x16x16 : 0 < S1x128x16x16.numel
  shapeCasts_S1x128x16x16_S128x16x16 : S1x128x16x16.ShapeCasts S128x16x16
  reduces_S128x16x16_S128x16 : S128x16x16.Reduces [2] S128x16
  shapeCasts_S128x16_S128x16x1 : S128x16.ShapeCasts S128x16x1
  broadcasts_S128x16x1_S128x16x16 : S128x16x1.Broadcasts S128x16x16
  shapeCasts_S128x16x16_S128x16x16x1 : S128x16x16.ShapeCasts S128x16x16x1
  broadcasts_S128x16x16x1_S128x16x16x64 : S128x16x16x1.Broadcasts S128x16x16x64
  reduces_S128x16x16x64_S128x16x64 : S128x16x16x64.Reduces [2] S128x16x64
  shapeCasts_S128x16x64_S128x1024 : S128x16x64.ShapeCasts S128x1024
  shapeCasts_S128x1024_S1x128x1024 : S128x1024.ShapeCasts S1x128x1024
  dot_S128x1024_S1024x3072_S128x3072_1_0_0_1_n_n_wf : DotDims.WF S128x1024 S1024x3072 S128x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S4x4096x1024.size a
  hwx0_0 : ∀ i : grid0.Coords, EltTy.bits .f32 = 32 ∨ (Rect.block (s := S4x4096x1024) S1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x16x16.size a ≤ S4x4096x16x16.size a
  hwx0_1 : ∀ i : grid0.Coords, EltTy.bits .f32 = 32 ∨ (Rect.block (s := S4x4096x16x16) S1x128x16x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S1024x3072.size a
  hwx0_2 : ∀ i : grid0.Coords, EltTy.bits .bf16 = 32 ∨ (Rect.block (s := S1024x3072) S1024x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x3072.size a ≤ S1x3072.size a
  hwx0_3 : ∀ i : grid0.Coords, EltTy.bits .f32 = 32 ∨ (Rect.block (s := S1x3072) S1x3072.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1024.size a ≤ S4x4096x1024.size a
  hwx0_4 : ∀ i : grid0.Coords, EltTy.bits .f32 = 32 ∨ (Rect.block (s := S4x4096x1024) S1x128x1024.size (cc0_transform_4 i) (hinb0_4 i)).WholeWords (EltTy.packing .f32)

variable [Facts₀]

def dot_S128x1024_S1024x3072_S128x3072_1_0_0_1_n_n : DotDims S128x1024 S1024x3072 S128x3072 where
  lhsContracting := [1]
  rhsContracting := [0]
  lhsNonContracting := [0]
  rhsNonContracting := [1]
  lhsBatch := []
  rhsBatch := []
  wf := dot_S128x1024_S1024x3072_S128x3072_1_0_0_1_n_n_wf

abbrev win0_0 : Pipeline.Window sig grid0 :=
  Pipeline.Window.ofSpec (Memref.whole main_arg0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x128x16x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S4x4096x16x16 : Shape := ⟨4, ![4, 4096, 16, 16]⟩
abbrev S3072x1024 : Shape := ⟨2, ![3072, 1024]⟩
abbrev S3072 : Shape := ⟨1, ![3072]⟩
abbrev S4x4096x3072 : Shape := ⟨3, ![4, 4096, 3072]⟩
abbrev S1x1x3072 : Shape := ⟨3, ![1, 1, 3072]⟩
abbrev S4x4096x16x64 : Shape := ⟨4, ![4, 4096, 16, 64]⟩
abbrev S_ : Shape := ⟨0, ![]⟩
abbrev S4x4096x16 : Shape := ⟨3, ![4, 4096, 16]⟩
abbrev S4x4096x16x1 : Shape := ⟨4, ![4, 4096, 16, 1]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x16x16, .f32⟩
  | .hbm, ⟨4, _⟩ => ⟨S3072x1024, .f32⟩
  | .hbm, ⟨5, _⟩ => ⟨S3072, .f32⟩
  | .hbm, ⟨6, _⟩ => ⟨S4x4096x3072, .f32⟩
  | .hbm, ⟨7, _⟩ => ⟨S1x1x3072, .f32⟩
  | .hbm, ⟨8, _⟩ => ⟨S4x4096x3072, .f32⟩
  | .hbm, ⟨9, _⟩ => ⟨S4x4096x3072, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S4x4096x16x64, .f32⟩
  | .hbm, ⟨14, _⟩ => ⟨S4x4096x16x64, .f32⟩
  | .hbm, ⟨15, _⟩ => ⟨S4x4096x16x64, .f32⟩
  | .hbm, ⟨16, _⟩ => ⟨S4x4096x16x16, .f32⟩
  | .hbm, ⟨17, _⟩ => ⟨S_, .f32⟩
  | .hbm, ⟨18, _⟩ => ⟨S4x4096x16x16, .f32⟩
  | .hbm, ⟨19, _⟩ => ⟨S4x4096x16x16, .f32⟩
  | .hbm, ⟨20, _⟩ => ⟨S4x4096x16x16, .f32⟩
  | .hbm, ⟨21, _⟩ => ⟨S_, .f32⟩
  | .hbm, ⟨22, _⟩ => ⟨S4x4096x16, .f32⟩
  | .hbm, ⟨23, _⟩ => ⟨S_, .f32⟩
  | .hbm, ⟨24, _⟩ => ⟨S4x4096x16, .f32⟩
  | .hbm, ⟨25, _⟩ => ⟨S4x4096x16, .f32⟩
  | .hbm, ⟨26, _⟩ => ⟨S4x4096x16x1, .f32⟩
  | .hbm, ⟨27, _⟩ => ⟨S4x4096x16x16, .f32⟩
  | .hbm, ⟨28, _⟩ => ⟨S4x4096x16x16, .f32⟩
  | .hbm, ⟨29, _⟩ => ⟨S4x4096x16x16, .f32⟩
  | .hbm, ⟨30, _⟩ => ⟨S_, .f32⟩
  | .hbm, ⟨31, _⟩ => ⟨S4x4096x16, .f32⟩
  | .hbm, ⟨32, _⟩ => ⟨S4x4096x16x1, .f32⟩
  | .hbm, ⟨33, _⟩ => ⟨S4x4096x16x16, .f32⟩
  | .hbm, ⟨34, _⟩ => ⟨S4x4096x16x16, .f32⟩
  | .hbm, ⟨35, _⟩ => ⟨S4x4096x16x64, .f32⟩
  | .hbm, ⟨36, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x4096x3072_0_1_2 : S1x1x3072.BroadcastsInDim S4x4096x3072 (![0, 1, 2] : Fin 3 → Fin S4x4096x3072.rank)
  slices_S4x4096x3072_S4x4096x1024_0_0_0 : S4x4096x3072.Slices ![0, 0, 0] S4x4096x1024
  slices_S4x4096x3072_S4x4096x1024_0_0_1024 : S4x4096x3072.Slices ![0, 0, 1024] S4x4096x1024
  slices_S4x4096x3072_S4x4096x1024_0_0_2048 : S4x4096x3072.Slices ![0, 0, 2048] S4x4096x1024
  shapeCasts_S4x4096x1024_S4x4096x16x64 : S4x4096x1024.ShapeCasts S4x4096x16x64
  bcast_S_S4x4096x16x16 : S_.BroadcastsInDim S4x4096x16x16 (![] : Fin 0 → Fin S4x4096x16x16.rank)
  reducesTo_S4x4096x16x16_S4x4096x16_d3 : S4x4096x16x16.ReducesTo [3] S4x4096x16
  h_S_ : 0 < S_.numel
  bcast_S_S4x4096x16 : S_.BroadcastsInDim S4x4096x16 (![] : Fin 0 → Fin S4x4096x16.rank)
  bcast_S4x4096x16_S4x4096x16x1_0_1_2 : S4x4096x16.BroadcastsInDim S4x4096x16x1 (![0, 1, 2] : Fin 3 → Fin S4x4096x16x1.rank)
  bcast_S4x4096x16x1_S4x4096x16x16_0_1_2_3 : S4x4096x16x1.BroadcastsInDim S4x4096x16x16 (![0, 1, 2, 3] : Fin 4 → Fin S4x4096x16x16.rank)
  shapeCasts_S4x4096x16x64_S4x4096x1024 : S4x4096x16x64.ShapeCasts S4x4096x1024
  dot_S4x4096x1024_S3072x1024_S4x4096x3072_2_1_01_0_n_n_wf : DotDims.WF S4x4096x1024 S3072x1024 S4x4096x3072 [2] [1] [0, 1] [0] [] []
  dot_S4x4096x16x64_S4x4096x16x64_S4x4096x16x16_3_3_2_2_01_01_wf : DotDims.WF S4x4096x16x64 S4x4096x16x64 S4x4096x16x16 [3] [3] [2] [2] [0, 1] [0, 1]
  dot_S4x4096x16x16_S4x4096x16x64_S4x4096x16x64_3_2_2_3_01_01_wf : DotDims.WF S4x4096x16x16 S4x4096x16x64 S4x4096x16x64 [3] [2] [2] [3] [0, 1] [0, 1]

variable [Facts₀]

def dot_S4x4096x1024_S3072x1024_S4x4096x3072_2_1_01_0_n_n : DotDims S4x4096x1024 S3072x1024 S4x4096x3072 where
  lhsContracting := [2]
  rhsContracting := [1]
  lhsNonContracting := [0, 1]
  rhsNonContracting := [0]
  lhsBatch := []
  rhsBatch := []
  wf := dot_S4x4096x1024_S3072x1024_S4x4096x3072_2_1_01_0_n_n_wf
def dot_S4x4096x16x64_S4x4096x16x64_S4x4096x16x16_3_3_2_2_01_01 : DotDims S4x4096x16x64 S4x4096x16x64 S4x4096x16x16 where
  lhsContracting := [3]
  rhsContracting := [3]
  lhsNonContracting := [2]
  rhsNonContracting := [2]
  lhsBatch := [0, 1]
  rhsBatch := [0, 1]
  wf := dot_S4x4096x16x64_S4x4096x16x64_S4x4096x16x16_3_3_2_2_01_01_wf
def dot_S4x4096x16x16_S4x4096x16x64_S4x4096x16x64_3_2_2_3_01_01 : DotDims S4x4096x16x16 S4x4096x16x64 S4x4096x16x64 where
  lhsContracting := [3]
  rhsContracting := [2]
  lhsNonContracting := [2]
  rhsNonContracting := [3]
  lhsBatch := [0, 1]
  rhsBatch := [0, 1]
  wf := dot_S4x4096x16x16_S4x4096x16x64_S4x4096x16x64_3_2_2_3_01_01_wf

class Facts : Prop extends Facts₀ where

variable [Facts]
-- ==== Proof.HeadMix.lean ====
/-
  The function both programs compute, written once over plain index types.

  One token is a row `x` of 1024 numbers. It is projected to 3072 columns,
  `p o = (∑ k, x k · W o k) + b o`. The columns are read as three blocks of 16 heads by 64 lanes: head `h`, lane `d`
  is column `64 h + d` of the first block, `1024 + 64 h + d` of the second, `2048 + 64 h + d` of the third.
  The score of head `h` against head `g` is `(∑ d, p (64 h + d) · p (1024 + 64 g + d)) · c + mask h g`, with `c` the
  number the word 0x3E000000 denotes. Each row of sixteen scores is turned into weights: its maximum (taken from
  the bottom element upward) is subtracted, the differences are exponentiated, and each exponential is divided by
  the row's sum of them. The result at head `h`, lane `d` is `∑ g, weight h g · p (2048 + 64 g + d)`.

  Nothing here is evaluated: the two constants stay the values of their words, and the sums are sums over `Fin n`,
  so the order in which either program adds is not part of the statement.
-/
import Idealize.ShloMosaic.PureOps.Ideal.Laws
import Idealize.ShloMosaic.Lib.ValueIdx

noncomputable section

namespace Cert.HeadMix

open Idealize.ShloMosaic Idealize.ShloMosaic.ValueIdx

/-- The scale both programs multiply the head products by: the value of the word 0x3E000000. -/
abbrev cScale : EReal := Ideal.ofBits .f32 0x3E000000#32
/-- The value both programs start a row's maximum from: the value of the word 0xFF800000. -/
abbrev cBot : EReal := Ideal.ofBits .f32 0xFF800000#32

/-- Column of head `h`, lane `d` in the first third of the projected row. -/
def colQ (h : Fin 16) (d : Fin 64) : Fin 3072 :=
  ⟨h.val * 64 + d.val, by have := h.isLt; have := d.isLt; omega⟩
/-- Column of head `g`, lane `d` in the second third. -/
def colK (g : Fin 16) (d : Fin 64) : Fin 3072 :=
  ⟨1024 + (g.val * 64 + d.val), by have := g.isLt; have := d.isLt; omega⟩
/-- Column of head `g`, lane `d` in the last third. -/
def colV (g : Fin 16) (d : Fin 64) : Fin 3072 :=
  ⟨2048 + (g.val * 64 + d.val), by have := g.isLt; have := d.isLt; omega⟩

theorem colQ_val (h : Fin 16) (d : Fin 64) : (colQ h d).val = h.val * 64 + d.val := rfl
theorem colK_val (g : Fin 16) (d : Fin 64) : (colK g d).val = 1024 + (g.val * 64 + d.val) := rfl
theorem colV_val (g : Fin 16) (d : Fin 64) : (colV g d).val = 2048 + (g.val * 64 + d.val) := rfl

/-- The projected row: column `o` is the row against row `o` of the weights, plus the bias. -/
def proj (x : Fin 1024 → EReal) (W : Fin 3072 → Fin 1024 → EReal) (b : Fin 3072 → EReal) (o : Fin 3072) : EReal :=
  (∑ k : Fin 1024, x k * W o k) + b o

/-- Head `h` against head `g`: the lane product of their first- and second-block columns, scaled, plus the mask. -/
def score (p : Fin 3072 → EReal) (mk : Fin 16 → Fin 16 → EReal) (h g : Fin 16) : EReal :=
  (∑ d : Fin 64, p (colQ h d) * p (colK g d)) * cScale + mk h g

/-- A row's maximum as both programs take it: the fold of `max` from the bottom value, then once more against it. -/
def rowMax (s : Fin 16 → EReal) : EReal :=
  max cBot ((Finset.univ : Finset (Fin 16)).fold max cBot s)

/-- The exponential of a score less its row's maximum. -/
def expo (p : Fin 3072 → EReal) (mk : Fin 16 → Fin 16 → EReal) (h g : Fin 16) : EReal :=
  Ideal.exp (score p mk h g - rowMax (score p mk h))

/-- The weight of head `g` for head `h`: its exponential over the row's sum of exponentials. -/
def weight (p : Fin 3072 → EReal) (mk : Fin 16 → Fin 16 → EReal) (h g : Fin 16) : EReal :=
  Ideal.div (expo p mk h g) (∑ g' : Fin 16, expo p mk h g')

/-- Head `h`, lane `d` of the result: the weighted sum of the third-block columns. -/
def mix (p : Fin 3072 → EReal) (mk : Fin 16 → Fin 16 → EReal) (h : Fin 16) (d : Fin 64) : EReal :=
  ∑ g : Fin 16, weight p mk h g * p (colV g d)

/-- The head of a column of the 1024-wide result. -/
def headOf (j : Fin 1024) : Fin 16 := ⟨j.val / 64, by have := j.isLt; omega⟩
/-- The lane of a column of the 1024-wide result. -/
def laneOf (j : Fin 1024) : Fin 64 := ⟨j.val % 64, by have := j.isLt; omega⟩

theorem headOf_val (j : Fin 1024) : (headOf j).val = j.val / 64 := rfl
theorem laneOf_val (j : Fin 1024) : (laneOf j).val = j.val % 64 := rfl

/-- One token's result row, from its query row, its 16 × 16 mask, the weights and the bias. -/
def token (x : Fin 1024 → EReal) (mk : Fin 16 → Fin 16 → EReal) (W : Fin 3072 → Fin 1024 → EReal)
    (b : Fin 3072 → EReal) (j : Fin 1024) : EReal :=
  mix (proj x W b) mk (headOf j) (laneOf j)

/-- The whole result array [4, 4096, 1024] from the query array [4, 4096, 1024], the mask array [4, 4096, 16, 16],
    the weights [3072, 1024] and the bias [3072]: token `(b, s)` by token. -/
def result (Q : (⟨3, ![4, 4096, 1024]⟩ : Shape).Idx → EReal) (M : (⟨4, ![4, 4096, 16, 16]⟩ : Shape).Idx → EReal)
    (W : (⟨2, ![3072, 1024]⟩ : Shape).Idx → EReal) (B : (⟨1, ![3072]⟩ : Shape).Idx → EReal) :
    (⟨3, ![4, 4096, 1024]⟩ : Shape).Idx → EReal :=
  fun i => token (fun k => Q (ix3 (i 0) (i 1) k)) (fun h g => M (ix4 (i 0) (i 1) h g))
    (fun o k => W (ix2 o k)) (fun o => B (ix1 o)) (i 2)

end Cert.HeadMix

end
-- ==== Proof.RefTokens.lean ====
/-
  The reference program, read one operation at a time at explicit coordinates, is the token function.

  Token `(b, s)` has a projected row of 3072 columns. Each of the three slices of that row, read as 16 heads by 64
  lanes, is a run of its columns: `64 h + d`, `1024 + 64 h + d` and `2048 + 64 h + d`, because the row-major position
  of `(b, s, h, d)` among [4, 4096, 16, 64] is that of `(b, s, 64 h + d)` among [4, 4096, 1024]. The head products,
  the row maxima, the exponentials, the row sums, the weights and the weighted sums then follow the specification's
  definitions one for one, and the last reshape sends column `j` of the result to head `j / 64`, lane `j % 64`.
-/
import proofs.«142218_j52518860096440_1_alg».proof.Proof.Gen.ReferenceIdeal.Read
import proofs.«142218_j52518860096440_1_alg».proof.Proof.HeadMix

noncomputable section

namespace Cert.RefTokens

open Cert.ReferenceIdeal Cert.ReferenceIdeal.Read Idealize.ShloMosaic Idealize.ShloMosaic.TcCoe Idealize.SL.Sem Idealize.ShloMosaic.ValueIdx
open Cert.ReferenceIdeal.Gen Cert.HeadMix

variable (x0 : (⟨S4x4096x1024, .f32⟩ : BufTy).Contents (Elt Ideal)) (x3 : (⟨S4x4096x16x16, .f32⟩ : BufTy).Contents (Elt Ideal))
  (x4 : (⟨S3072x1024, .f32⟩ : BufTy).Contents (Elt Ideal)) (x5 : (⟨S3072, .f32⟩ : BufTy).Contents (Elt Ideal))

/-- The projected row of token `(b, s)`: its 3072 columns. -/
def prow (b : Fin 4) (s : Fin 4096) : Fin 3072 → EReal :=
  proj (fun k => x0 (ix3 b s k)) (fun o k => x4 (ix2 o k)) (fun o => x5 (ix1 o))

/-- The 16 × 16 mask of token `(b, s)`. -/
def msk (b : Fin 4) (s : Fin 4096) : Fin 16 → Fin 16 → EReal := fun h g => x3 (ix4 b s h g)

/-- The biased projection, column by column. -/
theorem v3_at (b : Fin 4) (s : Fin 4096) (o : Fin 3072) :
    val_main_v3 (F := Ideal) x0 x4 x5 (ix3 b s o) = prow x0 x4 x5 b s o := by
  rw [val_main_v3_apply, val_main_v0_apply, val_main_v2_apply, val_main_v1_apply]
  have el : ∀ k : Fin 1024, lidx_main_v0 (ix3 b s o) k = ix3 b s k := fun k =>
    funext fun a => by match a with | ⟨0, _⟩ => rfl | ⟨1, _⟩ => rfl | ⟨2, _⟩ => rfl
  have er : ∀ k : Fin 1024, ridx_main_v0 (ix3 b s o) k = ix2 o k := fun k =>
    funext fun a => by match a with | ⟨0, _⟩ => rfl | ⟨1, _⟩ => rfl
  have eb : idx_main_v1 (idx_main_v2 (ix3 b s o)) = ix1 o :=
    funext fun a => by match a with | ⟨0, _⟩ => rfl
  simp only [el, er, eb]
  rfl

/-- Reading the first third as 16 heads by 64 lanes lands on column `64 h + d`. -/
theorem idxQ (b : Fin 4) (s : Fin 4096) (h : Fin 16) (d : Fin 64) :
    idx_main_v4 (idx_main_v7 (ix4 b s h d)) = ix3 b s (colQ h d) := by
  funext a
  apply Fin.ext
  have hb := b.isLt; have hs := s.isLt; have hh := h.isLt; have hd := d.isLt
  match a with
  | ⟨0, _⟩ => show (((b.val * 4096 + s.val) * 16 + h.val) * 64 + d.val) / 4194304 = b.val; omega
  | ⟨1, _⟩ => show (((b.val * 4096 + s.val) * 16 + h.val) * 64 + d.val) / 1024 % 4096 = s.val; omega
  | ⟨2, _⟩ => show (((b.val * 4096 + s.val) * 16 + h.val) * 64 + d.val) % 1024 = h.val * 64 + d.val; omega

/-- The second third likewise: column `1024 + 64 h + d`. -/
theorem idxK (b : Fin 4) (s : Fin 4096) (h : Fin 16) (d : Fin 64) :
    idx_main_v5 (idx_main_v8 (ix4 b s h d)) = ix3 b s (colK h d) := by
  funext a
  apply Fin.ext
  have hb := b.isLt; have hs := s.isLt; have hh := h.isLt; have hd := d.isLt
  match a with
  | ⟨0, _⟩ => show (((b.val * 4096 + s.val) * 16 + h.val) * 64 + d.val) / 4194304 = b.val; omega
  | ⟨1, _⟩ => show (((b.val * 4096 + s.val) * 16 + h.val) * 64 + d.val) / 1024 % 4096 = s.val; omega
  | ⟨2, _⟩ => show 1024 + (((b.val * 4096 + s.val) * 16 + h.val) * 64 + d.val) % 1024 = 1024 + (h.val * 64 + d.val); omega

/-- The last third: column `2048 + 64 h + d`. -/
theorem idxV (b : Fin 4) (s : Fin 4096) (h : Fin 16) (d : Fin 64) :
    idx_main_v6 (idx_main_v9 (ix4 b s h d)) = ix3 b s (colV h d) := by
  funext a
  apply Fin.ext
  have hb := b.isLt; have hs := s.isLt; have hh := h.isLt; have hd := d.isLt
  match a with
  | ⟨0, _⟩ => show (((b.val * 4096 + s.val) * 16 + h.val) * 64 + d.val) / 4194304 = b.val; omega
  | ⟨1, _⟩ => show (((b.val * 4096 + s.val) * 16 + h.val) * 64 + d.val) / 1024 % 4096 = s.val; omega
  | ⟨2, _⟩ => show 2048 + (((b.val * 4096 + s.val) * 16 + h.val) * 64 + d.val) % 1024 = 2048 + (h.val * 64 + d.val); omega

theorem v7_at (b : Fin 4) (s : Fin 4096) (h : Fin 16) (d : Fin 64) :
    val_main_v7 (F := Ideal) x0 x4 x5 (ix4 b s h d) = prow x0 x4 x5 b s (colQ h d) := by
  rw [val_main_v7_apply, val_main_v4_apply, idxQ, v3_at]

theorem v8_at (b : Fin 4) (s : Fin 4096) (h : Fin 16) (d : Fin 64) :
    val_main_v8 (F := Ideal) x0 x4 x5 (ix4 b s h d) = prow x0 x4 x5 b s (colK h d) := by
  rw [val_main_v8_apply, val_main_v5_apply, idxK, v3_at]

theorem v9_at (b : Fin 4) (s : Fin 4096) (h : Fin 16) (d : Fin 64) :
    val_main_v9 (F := Ideal) x0 x4 x5 (ix4 b s h d) = prow x0 x4 x5 b s (colV h d) := by
  rw [val_main_v9_apply, val_main_v6_apply, idxV, v3_at]

/-- The scaled, masked head product. -/
theorem v13_at (b : Fin 4) (s : Fin 4096) (h g : Fin 16) :
    val_main_v13 (F := Ideal) x0 x3 x4 x5 (ix4 b s h g) = score (prow x0 x4 x5 b s) (msk x3 b s) h g := by
  rw [val_main_v13_apply, val_main_v12_apply, val_main_v10_apply, val_main_v11_apply, val_main_cst_apply]
  have el : ∀ k : Fin 64, lidx_main_v10 (ix4 b s h g) k = ix4 b s h k := fun k =>
    funext fun a => by match a with | ⟨0, _⟩ => rfl | ⟨1, _⟩ => rfl | ⟨2, _⟩ => rfl | ⟨3, _⟩ => rfl
  have er : ∀ k : Fin 64, ridx_main_v10 (ix4 b s h g) k = ix4 b s g k := fun k =>
    funext fun a => by match a with | ⟨0, _⟩ => rfl | ⟨1, _⟩ => rfl | ⟨2, _⟩ => rfl | ⟨3, _⟩ => rfl
  simp only [el, er, v7_at, v8_at]
  rfl

/-- The shape fact that names the index a row's maximum runs over. -/
theorem dropLast : S4x4096x16x16.Reduces [3] S4x4096x16 := by decide

/-- Putting coordinate `g` back on the last axis of `(b, s, h)`. -/
theorem lift_at (b : Fin 4) (s : Fin 4096) (h g : Fin 16) :
    dropLast.lift (ix3 b s h) g = ix4 b s h g :=
  funext fun a => Fin.ext (by match a with | ⟨0, _⟩ => rfl | ⟨1, _⟩ => rfl | ⟨2, _⟩ => rfl | ⟨3, _⟩ => rfl)

/-- The max-reduce: the fold of `max` over a row of scores, from the bottom value. -/
theorem v14_at (b : Fin 4) (s : Fin 4096) (h : Fin 16) :
    val_main_v14 (F := Ideal) x0 x3 x4 x5 (ix3 b s h)
      = (Finset.univ : Finset (Fin 16)).fold max cBot (score (prow x0 x4 x5 b s) (msk x3 b s) h) := by
  unfold val_main_v14
  refine (Host.reduce_eq_fold_single (FloatOps.maximumf (F := Ideal) (φ := .f32)) (val_main_v13 (F := Ideal) x0 x3 x4 x5)
    (val_main_cst_0 (F := Ideal)) reducesTo_S4x4096x16x16_S4x4096x16_d3 dropLast h_S_ (ix3 b s h)).trans ?_
  show (Finset.univ : Finset (Fin 16)).fold max cBot
      (fun g : Fin 16 => val_main_v13 (F := Ideal) x0 x3 x4 x5 (dropLast.lift (ix3 b s h) g)) = _
  have hf : (fun g : Fin 16 => val_main_v13 (F := Ideal) x0 x3 x4 x5 (dropLast.lift (ix3 b s h) g))
      = score (prow x0 x4 x5 b s) (msk x3 b s) h :=
    funext fun g => by rw [lift_at, v13_at]
  rw [hf]

/-- A row's maximum as the reference takes it. -/
theorem v16_at (b : Fin 4) (s : Fin 4096) (h : Fin 16) :
    val_main_v16 (F := Ideal) x0 x3 x4 x5 (ix3 b s h) = rowMax (score (prow x0 x4 x5 b s) (msk x3 b s) h) := by
  rw [val_main_v16_apply, val_main_v15_apply, val_main_cst_1_apply, v14_at]
  rfl

/-- The keepdims column of the maxima, broadcast back over the row, reads row `(b, s, h)`. -/
theorem idxRowMax (b : Fin 4) (s : Fin 4096) (h g : Fin 16) :
    idx_main_v17 (idx_main_v18 (ix4 b s h g)) = ix3 b s h :=
  funext fun a => by match a with | ⟨0, _⟩ => rfl | ⟨1, _⟩ => rfl | ⟨2, _⟩ => rfl

/-- The keepdims column of the sums likewise. -/
theorem idxRowSum (b : Fin 4) (s : Fin 4096) (h g : Fin 16) :
    idx_main_v22 (idx_main_v23 (ix4 b s h g)) = ix3 b s h :=
  funext fun a => by match a with | ⟨0, _⟩ => rfl | ⟨1, _⟩ => rfl | ⟨2, _⟩ => rfl

/-- The exponential of a score less its row's maximum. -/
theorem v20_at (b : Fin 4) (s : Fin 4096) (h g : Fin 16) :
    val_main_v20 (F := Ideal) x0 x3 x4 x5 (ix4 b s h g) = expo (prow x0 x4 x5 b s) (msk x3 b s) h g := by
  rw [val_main_v20_apply, val_main_v19_apply, val_main_v18_apply, val_main_v17_apply, idxRowMax, v16_at, v13_at]
  rfl

/-- A row's sum of exponentials: the zero it starts from drops out. -/
theorem v21_at (b : Fin 4) (s : Fin 4096) (h : Fin 16) :
    val_main_v21 (F := Ideal) x0 x3 x4 x5 (ix3 b s h) = ∑ g : Fin 16, expo (prow x0 x4 x5 b s) (msk x3 b s) h g := by
  rw [val_main_v21_apply, val_main_cst_2_apply]
  have e : ∀ k : Fin 16, idx_main_v21 (ix3 b s h) k = ix4 b s h k := fun k =>
    funext fun a => by match a with | ⟨0, _⟩ => rfl | ⟨1, _⟩ => rfl | ⟨2, _⟩ => rfl | ⟨3, _⟩ => rfl
  simp only [e, v20_at, Ideal.ofBits_def, Ideal.ofBits_zero_f32, zero_add]

/-- The weight: an exponential over its row's sum. -/
theorem v24_at (b : Fin 4) (s : Fin 4096) (h g : Fin 16) :
    val_main_v24 (F := Ideal) x0 x3 x4 x5 (ix4 b s h g) = weight (prow x0 x4 x5 b s) (msk x3 b s) h g := by
  rw [val_main_v24_apply, val_main_v23_apply, val_main_v22_apply, idxRowSum, v21_at, v20_at]
  rfl

/-- The weighted sum of the third-block columns. -/
theorem v25_at (b : Fin 4) (s : Fin 4096) (h : Fin 16) (d : Fin 64) :
    val_main_v25 (F := Ideal) x0 x3 x4 x5 (ix4 b s h d) = mix (prow x0 x4 x5 b s) (msk x3 b s) h d := by
  rw [val_main_v25_apply]
  have el : ∀ k : Fin 16, lidx_main_v25 (ix4 b s h d) k = ix4 b s h k := fun k =>
    funext fun a => by match a with | ⟨0, _⟩ => rfl | ⟨1, _⟩ => rfl | ⟨2, _⟩ => rfl | ⟨3, _⟩ => rfl
  have er : ∀ k : Fin 16, ridx_main_v25 (ix4 b s h d) k = ix4 b s k d := fun k =>
    funext fun a => by match a with | ⟨0, _⟩ => rfl | ⟨1, _⟩ => rfl | ⟨2, _⟩ => rfl | ⟨3, _⟩ => rfl
  simp only [el, er, v24_at, v9_at]
  rfl

/-- Column `j` of the 1024-wide result is head `j / 64`, lane `j % 64` of the same token. -/
theorem idxOut (b : Fin 4) (s : Fin 4096) (j : Fin 1024) :
    idx_main_v26 (ix3 b s j) = ix4 b s (headOf j) (laneOf j) := by
  funext a
  apply Fin.ext
  have hb := b.isLt; have hs := s.isLt; have hj := j.isLt
  match a with
  | ⟨0, _⟩ => show ((b.val * 4096 + s.val) * 1024 + j.val) / 4194304 = b.val; omega
  | ⟨1, _⟩ => show ((b.val * 4096 + s.val) * 1024 + j.val) / 1024 % 4096 = s.val; omega
  | ⟨2, _⟩ => show ((b.val * 4096 + s.val) * 1024 + j.val) / 64 % 16 = j.val / 64; omega
  | ⟨3, _⟩ => show ((b.val * 4096 + s.val) * 1024 + j.val) % 64 = j.val % 64; omega

/-- The reference program computes the token function, token by token. -/
theorem ref_eq (x0 : (⟨S4x4096x1024, .f32⟩ : BufTy).Contents (Elt Ideal)) (x3 : (⟨S4x4096x16x16, .f32⟩ : BufTy).Contents (Elt Ideal))
    (x4 : (⟨S3072x1024, .f32⟩ : BufTy).Contents (Elt Ideal)) (x5 : (⟨S3072, .f32⟩ : BufTy).Contents (Elt Ideal)) :
    val_main_v26 (F := Ideal) x0 x3 x4 x5 = Cert.HeadMix.result x0 x3 x4 x5 := by
  funext i
  obtain ⟨b, s, j, rfl⟩ : ∃ (b : Fin 4) (s : Fin 4096) (j : Fin 1024), i = ix3 b s j := ⟨i 0, i 1, i 2, eq_ix3 i⟩
  rw [val_main_v26_apply, idxOut, v25_at]
  rfl

end Cert.RefTokens

end
-- ==== Proof.BlockLayout.lean ====
/-
  Reading the block's re-laid values at an index.

  The body computes on a [128, 3072] projected block and re-lays it several ways: a third of the columns is cut out and
  read as [128, 16, 64] (row, head, lane); a [128, 16, 64] value is laid along a new head axis on either side, and a
  [128, 16, 16] value along a new lane axis, to form [128, 16, 16, 64] products; a [128, 16] column of row statistics is
  laid along the sixteen scores of its row; and the [128, 16, 64] result is flattened back to [1, 128, 1024]. Each lemma
  here says which element of the operand an element of the re-laid value is, over explicit coordinates. The sums over
  one axis and the maximum over one axis are read as sums and folds over that axis's coordinates.
-/
import proofs.«142218_j52518860096440_1_alg».proof.KernelIdeal
import proofs.«142218_j52518860096440_1_alg».proof.Proof.HeadMix
import Idealize.ShloMosaic.Lib.Pipeline.Value
import Idealize.ShloMosaic.Lib.ValueIdx
import Idealize.ShloMosaic.PureOps.Ideal.Laws

noncomputable section

namespace Cert.BlockLayout

open Cert.KernelIdeal Cert.HeadMix Idealize.ShloMosaic Idealize.ShloMosaic.ValueIdx

variable {α : Type}

/-! ## Layout -/

/-- A per-row, per-head value laid along the sixteen scores of its row. -/
theorem alongScores (x : S128x16.Idx → α) (hc : S128x16.ShapeCasts S128x16x1) (hb : S128x16x1.Broadcasts S128x16x16)
    (r : Fin 128) (h g : Fin 16) :
    broadcastTo S128x16x16 (shapeCast S128x16x1 x hc) hb (ix3 r h g) = x (ix2 r h) := by
  refine (broadcastTo_apply _ hb (ix3 r h g) (ix3 r h (0 : Fin 1)) (fun a => ?_)).trans ?_
  · match a with
    | ⟨0, _⟩ => show r.val = if (128 : Nat) = 1 then 0 else r.val; rw [if_neg (by decide)]
    | ⟨1, _⟩ => show h.val = if (16 : Nat) = 1 then 0 else h.val; rw [if_neg (by decide)]
    | ⟨2, _⟩ => show 0 = if (1 : Nat) = 1 then 0 else g.val; rw [if_pos rfl]
  · exact shapeCast_apply x hc (ix3 r h (0 : Fin 1)) (ix2 r h)
      (by rw [Shape.rowMajor_val_two, Shape.rowMajor_val_three]; show r.val * 16 + h.val = (r.val * 16 + h.val) * 1 + 0; omega)

/-- A (row, head, lane) value laid along a new second head axis: the new axis is not read. -/
theorem alongSecondHead (x : S128x16x64.Idx → α) (hc : S128x16x64.ShapeCasts S128x16x1x64)
    (hb : S128x16x1x64.Broadcasts S128x16x16x64) (r : Fin 128) (h g : Fin 16) (d : Fin 64) :
    broadcastTo S128x16x16x64 (shapeCast S128x16x1x64 x hc) hb (ix4 r h g d) = x (ix3 r h d) := by
  refine (broadcastTo_apply _ hb (ix4 r h g d) (ix4 r h (0 : Fin 1) d) (fun a => ?_)).trans ?_
  · match a with
    | ⟨0, _⟩ => show r.val = if (128 : Nat) = 1 then 0 else r.val; rw [if_neg (by decide)]
    | ⟨1, _⟩ => show h.val = if (16 : Nat) = 1 then 0 else h.val; rw [if_neg (by decide)]
    | ⟨2, _⟩ => show 0 = if (1 : Nat) = 1 then 0 else g.val; rw [if_pos rfl]
    | ⟨3, _⟩ => show d.val = if (64 : Nat) = 1 then 0 else d.val; rw [if_neg (by decide)]
  · exact shapeCast_apply x hc (ix4 r h (0 : Fin 1) d) (ix3 r h d)
      (by rw [Shape.rowMajor_val_three, Shape.rowMajor_val_four]
          show (r.val * 16 + h.val) * 64 + d.val = ((r.val * 16 + h.val) * 1 + 0) * 64 + d.val; omega)

/-- A (row, head, lane) value laid along a new first head axis: the value's own head is the second one. -/
theorem alongFirstHead (x : S128x16x64.Idx → α) (hc : S128x16x64.ShapeCasts S128x1x16x64)
    (hb : S128x1x16x64.Broadcasts S128x16x16x64) (r : Fin 128) (h g : Fin 16) (d : Fin 64) :
    broadcastTo S128x16x16x64 (shapeCast S128x1x16x64 x hc) hb (ix4 r h g d) = x (ix3 r g d) := by
  refine (broadcastTo_apply _ hb (ix4 r h g d) (ix4 r (0 : Fin 1) g d) (fun a => ?_)).trans ?_
  · match a with
    | ⟨0, _⟩ => show r.val = if (128 : Nat) = 1 then 0 else r.val; rw [if_neg (by decide)]
    | ⟨1, _⟩ => show 0 = if (1 : Nat) = 1 then 0 else h.val; rw [if_pos rfl]
    | ⟨2, _⟩ => show g.val = if (16 : Nat) = 1 then 0 else g.val; rw [if_neg (by decide)]
    | ⟨3, _⟩ => show d.val = if (64 : Nat) = 1 then 0 else d.val; rw [if_neg (by decide)]
  · exact shapeCast_apply x hc (ix4 r (0 : Fin 1) g d) (ix3 r g d)
      (by rw [Shape.rowMajor_val_three, Shape.rowMajor_val_four]
          show (r.val * 16 + g.val) * 64 + d.val = ((r.val * 1 + 0) * 16 + g.val) * 64 + d.val; omega)

/-- A (row, head, head) value laid along a new lane axis. -/
theorem alongLanes (x : S128x16x16.Idx → α) (hc : S128x16x16.ShapeCasts S128x16x16x1)
    (hb : S128x16x16x1.Broadcasts S128x16x16x64) (r : Fin 128) (h g : Fin 16) (d : Fin 64) :
    broadcastTo S128x16x16x64 (shapeCast S128x16x16x1 x hc) hb (ix4 r h g d) = x (ix3 r h g) := by
  refine (broadcastTo_apply _ hb (ix4 r h g d) (ix4 r h g (0 : Fin 1)) (fun a => ?_)).trans ?_
  · match a with
    | ⟨0, _⟩ => show r.val = if (128 : Nat) = 1 then 0 else r.val; rw [if_neg (by decide)]
    | ⟨1, _⟩ => show h.val = if (16 : Nat) = 1 then 0 else h.val; rw [if_neg (by decide)]
    | ⟨2, _⟩ => show g.val = if (16 : Nat) = 1 then 0 else g.val; rw [if_neg (by decide)]
    | ⟨3, _⟩ => show 0 = if (1 : Nat) = 1 then 0 else d.val; rw [if_pos rfl]
  · exact shapeCast_apply x hc (ix4 r h g (0 : Fin 1)) (ix3 r h g)
      (by rw [Shape.rowMajor_val_three, Shape.rowMajor_val_four]
          show (r.val * 16 + h.val) * 16 + g.val = ((r.val * 16 + h.val) * 16 + g.val) * 1 + 0; omega)

/-- A third of the projected block's columns, starting at column `off`, read as (row, head, lane): head `h`, lane `d`
    is column `off + 64 h + d` of the block. -/
theorem thirdAsHeads (off : Nat) (X : S128x3072.Idx → α) (hs : S128x3072.Slices ![0, off] S128x1024)
    (hc : S128x1024.ShapeCasts S128x16x64) (r : Fin 128) (h : Fin 16) (d : Fin 64) (o : Fin 3072)
    (ho : o.val = off + (h.val * 64 + d.val)) :
    shapeCast S128x16x64 (extractStridedSlice S128x1024 ![0, off] X hs) hc (ix3 r h d) = X (ix2 r o) := by
  have hh := h.isLt
  have hd := d.isLt
  let c : Fin 1024 := ⟨h.val * 64 + d.val, by omega⟩
  refine (shapeCast_apply _ hc (ix3 r h d) (ix2 r c)
    (by rw [Shape.rowMajor_val_two, Shape.rowMajor_val_three]
        show r.val * 1024 + (h.val * 64 + d.val) = (r.val * 16 + h.val) * 64 + d.val; omega)).trans ?_
  exact extractStridedSlice_apply ![0, off] X hs (ix2 r c) (ix2 r o) (fun a => by
    match a with
    | ⟨0, _⟩ => show r.val = 0 + r.val; omega
    | ⟨1, _⟩ => show o.val = off + (h.val * 64 + d.val); exact ho)

/-- The (row, head, lane) result flattened to [1, 128, 1024]: column `j` of row `r` is head `j / 64`, lane `j % 64`. -/
theorem flattenHeads (x : S128x16x64.Idx → α) (h1 : S128x16x64.ShapeCasts S128x1024) (h2 : S128x1024.ShapeCasts S1x128x1024)
    (r : Fin 128) (j : Fin 1024) :
    shapeCast S1x128x1024 (shapeCast S128x1024 x h1) h2 (ix3 (0 : Fin 1) r j) = x (ix3 r (headOf j) (laneOf j)) := by
  have hj := j.isLt
  refine (shapeCast_apply _ h2 (ix3 (0 : Fin 1) r j) (ix2 r j)
    (by rw [Shape.rowMajor_val_two, Shape.rowMajor_val_three]
        show r.val * 1024 + j.val = (0 * 128 + r.val) * 1024 + j.val; omega)).trans ?_
  exact shapeCast_apply x h1 (ix2 r j) (ix3 r (headOf j) (laneOf j))
    (by rw [Shape.rowMajor_val_three, Shape.rowMajor_val_two]
        show (r.val * 16 + j.val / 64) * 64 + j.val % 64 = r.val * 1024 + j.val; omega)

/-- The loaded mask block without its leading unit axis. -/
theorem maskRows (x : S1x128x16x16.Idx → α) (hc : S1x128x16x16.ShapeCasts S128x16x16) (r : Fin 128) (h g : Fin 16) :
    shapeCast S128x16x16 x hc (ix3 r h g) = x (ix4 (0 : Fin 1) r h g) :=
  shapeCast_apply x hc (ix3 r h g) (ix4 (0 : Fin 1) r h g)
    (by rw [Shape.rowMajor_val_four, Shape.rowMajor_val_three]
        show ((0 * 128 + r.val) * 16 + h.val) * 16 + g.val = (r.val * 16 + h.val) * 16 + g.val; omega)

/-- The loaded query block without its leading unit axis. -/
theorem queryRows (x : S1x128x1024.Idx → α) (hc : S1x128x1024.ShapeCasts S128x1024) (r : Fin 128) (k : Fin 1024) :
    shapeCast S128x1024 x hc (ix2 r k) = x (ix3 (0 : Fin 1) r k) :=
  shapeCast_apply x hc (ix2 r k) (ix3 (0 : Fin 1) r k)
    (by rw [Shape.rowMajor_val_three, Shape.rowMajor_val_two]
        show (0 * 128 + r.val) * 1024 + k.val = r.val * 1024 + k.val; omega)

/-- The bias row laid down the 128 rows. -/
theorem biasRows (x : S1x3072.Idx → α) (hc : S1x3072.ShapeCasts S1x3072) (hb : S1x3072.Broadcasts S128x3072)
    (r : Fin 128) (o : Fin 3072) :
    broadcastTo S128x3072 (shapeCast S1x3072 x hc) hb (ix2 r o) = x (ix2 (0 : Fin 1) o) := by
  rw [shapeCast_self]
  exact broadcastTo_apply x hb (ix2 r o) (ix2 (0 : Fin 1) o) (fun a => by
    match a with
    | ⟨0, _⟩ => show 0 = if (1 : Nat) = 1 then 0 else r.val; rw [if_pos rfl]
    | ⟨1, _⟩ => show o.val = if (3072 : Nat) = 1 then 0 else o.val; rw [if_neg (by decide)])

/-! ## Sums and the maximum over one axis -/

/-- The sum over the lanes of a [128, 16, 16, 64] value. -/
theorem sumOverLanes (X : FVec Ideal S128x16x16x64 .f32) (hr : S128x16x16x64.Reduces [3] S128x16x16)
    (hφ : FKind.Formats .f32) (hacc : (0x00000000#32 : BitVec 32) = FKind.add.neutral .f32 hφ)
    (r : Fin 128) (h g : Fin 16) :
    multiReduction .add [3] S128x16x16 X 0x00000000#32 hr hφ hacc (ix3 r h g) = ∑ d : Fin 64, X (ix4 r h g d) := by
  refine (Ideal.multiReduction_add_single X _ hr hφ hacc (ix3 r h g)).trans ?_
  show ∑ d : Fin 64, X (hr.lift (ix3 r h g) d) = _
  refine Finset.sum_congr rfl fun d _ => congrArg X (funext fun a => Fin.ext ?_)
  match a with
  | ⟨0, _⟩ => rfl
  | ⟨1, _⟩ => rfl
  | ⟨2, _⟩ => rfl
  | ⟨3, _⟩ => rfl

/-- The sum over the second head of a [128, 16, 16] value. -/
theorem sumOverScores (X : FVec Ideal S128x16x16 .f32) (hr : S128x16x16.Reduces [2] S128x16)
    (hφ : FKind.Formats .f32) (hacc : (0x00000000#32 : BitVec 32) = FKind.add.neutral .f32 hφ)
    (r : Fin 128) (h : Fin 16) :
    multiReduction .add [2] S128x16 X 0x00000000#32 hr hφ hacc (ix2 r h) = ∑ g : Fin 16, X (ix3 r h g) := by
  refine (Ideal.multiReduction_add_single X _ hr hφ hacc (ix2 r h)).trans ?_
  show ∑ g : Fin 16, X (hr.lift (ix2 r h) g) = _
  refine Finset.sum_congr rfl fun g _ => congrArg X (funext fun a => Fin.ext ?_)
  match a with
  | ⟨0, _⟩ => rfl
  | ⟨1, _⟩ => rfl
  | ⟨2, _⟩ => rfl

/-- The sum over the second head of a [128, 16, 16, 64] value. -/
theorem sumOverSecondHead (X : FVec Ideal S128x16x16x64 .f32) (hr : S128x16x16x64.Reduces [2] S128x16x64)
    (hφ : FKind.Formats .f32) (hacc : (0x00000000#32 : BitVec 32) = FKind.add.neutral .f32 hφ)
    (r : Fin 128) (h : Fin 16) (d : Fin 64) :
    multiReduction .add [2] S128x16x64 X 0x00000000#32 hr hφ hacc (ix3 r h d) = ∑ g : Fin 16, X (ix4 r h g d) := by
  refine (Ideal.multiReduction_add_single X _ hr hφ hacc (ix3 r h d)).trans ?_
  show ∑ g : Fin 16, X (hr.lift (ix3 r h d) g) = _
  refine Finset.sum_congr rfl fun g _ => congrArg X (funext fun a => Fin.ext ?_)
  match a with
  | ⟨0, _⟩ => rfl
  | ⟨1, _⟩ => rfl
  | ⟨2, _⟩ => rfl
  | ⟨3, _⟩ => rfl

/-- The maximum over the second head of a [128, 16, 16] value, from the bottom value upward. -/
theorem maxOverScores (X : FVec Ideal S128x16x16 .f32) (hr : S128x16x16.Reduces [2] S128x16)
    (hφ : FKind.Formats .f32) (hacc : (0xFF800000#32 : BitVec 32) = FKind.maximumf.neutral .f32 hφ)
    (r : Fin 128) (h : Fin 16) :
    multiReduction .maximumf [2] S128x16 X 0xFF800000#32 hr hφ hacc (ix2 r h)
      = (Finset.univ : Finset (Fin 16)).fold max cBot (fun g => X (ix3 r h g)) := by
  refine (Ideal.multiReduction_maximumf_single X _ hr hφ hacc (ix2 r h)).trans ?_
  show (Finset.univ : Finset (Fin 16)).fold max cBot (X ∘ hr.lift (ix2 r h)) = _
  refine congrArg (fun f => (Finset.univ : Finset (Fin 16)).fold max cBot f) (funext fun g => congrArg X (funext fun a => Fin.ext ?_))
  match a with
  | ⟨0, _⟩ => rfl
  | ⟨1, _⟩ => rfl
  | ⟨2, _⟩ => rfl

end Cert.BlockLayout

end
-- ==== Proof.BlockTokens.lean ====
/-
  One block of the kernel is one token per row.

  The body projects its [128, 1024] query block against the [1024, 3072] weight block and adds the bias row; cuts the
  projected block into three thirds read as (row, head, lane); forms, for each row, the 16 × 16 scores of heads against
  heads (lane products summed, scaled, plus the mask block), turns each row of sixteen scores into weights (subtract the
  row's maximum, exponentiate, divide by the row's sum), and mixes the last third's heads by those weights. Every step
  acts on each of the 128 rows separately, so the stored value at row `r`, column `j` is the token function of row `r`
  of the query block, row `r` of the mask block, the weight block read transposed and the bias row.

  The body's value is first restated as a chain of named stages over an arbitrary projected block `X` and mask block
  `Mk`; each stage is then read at an index from the stage before it.
-/
import proofs.«142218_j52518860096440_1_alg».proof.Proof.Gen.KernelIdeal.Skeleton
import proofs.«142218_j52518860096440_1_alg».proof.Proof.HeadMix
import proofs.«142218_j52518860096440_1_alg».proof.Proof.BlockLayout

noncomputable section

namespace Cert.BlockTokens

open Cert.KernelIdeal Cert.KernelIdeal.Gen Cert.HeadMix Cert.BlockLayout
open Idealize.ShloMosaic Idealize.ShloMosaic.TcCoe Idealize.ShloMosaic.ValueIdx

/-! ## The projection: a row of the block against a column of the weight block, plus the bias -/

theorem lhs_row (i : S128x3072.Idx) (q : dot_S128x1024_S1024x3072_S128x3072_1_0_0_1_n_n.contr.Idx) :
    (dot_S128x1024_S1024x3072_S128x3072_1_0_0_1_n_n.lhsIdx i q 0).val = (i 0).val := by
  unfold DotDims.lhsIdx
  rw [dif_neg (show ¬(0 : Fin S128x1024.rank) ∈ dot_S128x1024_S1024x3072_S128x3072_1_0_0_1_n_n.lhsBatch by decide), dif_pos (show (0 : Fin S128x1024.rank) ∈ dot_S128x1024_S1024x3072_S128x3072_1_0_0_1_n_n.lhsNonContracting by decide)]
  rfl
theorem lhs_contr (i : S128x3072.Idx) (q : dot_S128x1024_S1024x3072_S128x3072_1_0_0_1_n_n.contr.Idx) :
    (dot_S128x1024_S1024x3072_S128x3072_1_0_0_1_n_n.lhsIdx i q 1).val = (q ⟨0, by decide⟩).val :=
  dot_S128x1024_S1024x3072_S128x3072_1_0_0_1_n_n.lhsIdx_val_of_single rfl i q
theorem rhs_contr (i : S128x3072.Idx) (q : dot_S128x1024_S1024x3072_S128x3072_1_0_0_1_n_n.contr.Idx) :
    (dot_S128x1024_S1024x3072_S128x3072_1_0_0_1_n_n.rhsIdx i q 0).val = (q ⟨0, by decide⟩).val :=
  dot_S128x1024_S1024x3072_S128x3072_1_0_0_1_n_n.rhsIdx_val_of_single rfl i q
theorem rhs_col (i : S128x3072.Idx) (q : dot_S128x1024_S1024x3072_S128x3072_1_0_0_1_n_n.contr.Idx) :
    (dot_S128x1024_S1024x3072_S128x3072_1_0_0_1_n_n.rhsIdx i q 1).val = (i 1).val := by
  unfold DotDims.rhsIdx
  rw [dif_neg (show ¬(1 : Fin S1024x3072.rank) ∈ dot_S128x1024_S1024x3072_S128x3072_1_0_0_1_n_n.rhsBatch by decide), dif_pos (show (1 : Fin S1024x3072.rank) ∈ dot_S128x1024_S1024x3072_S128x3072_1_0_0_1_n_n.rhsNonContracting by decide)]
  rfl

/-- The matrix product into a zero accumulator, at row `r` and column `o`: the row of the left operand against the
    column of the right one. -/
theorem product_apply (L : FVec Ideal S128x1024 .bf16) (R : FVec Ideal S1024x3072 .bf16) (r : Fin 128) (o : Fin 3072) :
    matmul (F := Ideal) dot_S128x1024_S1024x3072_S128x3072_1_0_0_1_n_n none L R (constant (F := Ideal) S128x3072 .f32 0x00000000#32) (ix2 r o)
      = ∑ k : Fin 1024, L (ix2 r k) * R (ix2 k o) := by
  simp only [matmul]
  rw [Ideal.matmul_constant_zero_apply, ← Equiv.sum_comp (contrEquiv1 dot_S128x1024_S1024x3072_S128x3072_1_0_0_1_n_n 1024 rfl rfl).symm]
  refine Finset.sum_congr rfl fun k _ => ?_
  have hk := contrEquiv1_symm_val dot_S128x1024_S1024x3072_S128x3072_1_0_0_1_n_n 1024 rfl rfl k
  have el : dot_S128x1024_S1024x3072_S128x3072_1_0_0_1_n_n.lhsIdx (ix2 r o) ((contrEquiv1 dot_S128x1024_S1024x3072_S128x3072_1_0_0_1_n_n 1024 rfl rfl).symm k) = ix2 r k := funext fun a => Fin.ext (by
    match a with
    | ⟨0, _⟩ => exact lhs_row _ _
    | ⟨1, _⟩ => exact (lhs_contr _ _).trans hk)
  have er : dot_S128x1024_S1024x3072_S128x3072_1_0_0_1_n_n.rhsIdx (ix2 r o) ((contrEquiv1 dot_S128x1024_S1024x3072_S128x3072_1_0_0_1_n_n 1024 rfl rfl).symm k) = ix2 k o := funext fun a => Fin.ext (by
    match a with
    | ⟨0, _⟩ => exact (rhs_contr _ _).trans hk
    | ⟨1, _⟩ => exact rhs_col _ _)
  rw [el, er]

/-- The projected block at row `r`, column `o`. The narrowing of the query block changes no value here. -/
theorem projected_apply (P0 : Vec Ideal S1x128x1024 .f32) (P1 : Vec Ideal S1024x3072 .bf16) (P2 : Vec Ideal S1x3072 .f32)
    (r : Fin 128) (o : Fin 3072) :
    k0_pay2 P0 P1 P2 (ix2 r o)
      = proj (fun k => P0 (ix3 (0 : Fin 1) r k)) (fun o k => P1 (ix2 k o)) (fun o => P2 (ix2 (0 : Fin 1) o)) o := by
  unfold k0_pay2 proj
  refine congrArg₂ (fun a b : EReal => a + b) ((product_apply _ _ r o).trans ?_)
    (biasRows P2 shapeCasts_S1x3072_S1x3072 broadcasts_S1x3072_S128x3072 r o)
  refine Finset.sum_congr rfl fun k _ => ?_
  exact congrArg₂ (fun a b : EReal => a * b) (queryRows P0 shapeCasts_S1x128x1024_S128x1024 r k)
    (congrFun (shapeCast_self P1 shapeCasts_S1024x3072_S1024x3072) (ix2 k o))

/-! ## The stages after the projection, over an arbitrary projected block and mask block -/

section Stages
variable (X : FVec Ideal S128x3072 .f32) (Mk : Vec Ideal S1x128x16x16 .f32)

/-- The first third of the projected block as (row, head, lane). -/
def firstHeads : FVec Ideal S128x16x64 .f32 :=
  shapeCast S128x16x64 (extractStridedSlice S128x1024 ![0, 0] X slices_S128x3072_o0_0_S128x1024) shapeCasts_S128x1024_S128x16x64
/-- The second third. -/
def secondHeads : FVec Ideal S128x16x64 .f32 :=
  shapeCast S128x16x64 (extractStridedSlice S128x1024 ![0, 1024] X slices_S128x3072_o0_1024_S128x1024) shapeCasts_S128x1024_S128x16x64
/-- The last third. -/
def thirdHeads : FVec Ideal S128x16x64 .f32 :=
  shapeCast S128x16x64 (extractStridedSlice S128x1024 ![0, 2048] X slices_S128x3072_o0_2048_S128x1024) shapeCasts_S128x1024_S128x16x64

/-- The scores: lane products of first-third heads against second-third heads, summed, scaled, plus the mask. -/
def scoresV : FVec Ideal S128x16x16 .f32 :=
  addf (mulf (multiReduction .add [3] S128x16x16
      (mulf (broadcastTo S128x16x16x64 (shapeCast S128x16x1x64 (firstHeads X) shapeCasts_S128x16x64_S128x16x1x64) broadcasts_S128x16x1x64_S128x16x16x64)
        (broadcastTo S128x16x16x64 (shapeCast S128x1x16x64 (secondHeads X) shapeCasts_S128x16x64_S128x1x16x64) broadcasts_S128x1x16x64_S128x16x16x64))
      0x00000000#32 reduces_S128x16x16x64_S128x16x16 (.inl rfl) rfl)
    (broadcast S128x16x16 (Scalar.ofBits .f32 0x3E000000#32)))
    (shapeCast S128x16x16 Mk shapeCasts_S1x128x16x16_S128x16x16)

/-- Each row's maximum score. -/
def rowMaxV : FVec Ideal S128x16 .f32 :=
  maximumf (broadcast S128x16 (Scalar.ofBits .f32 0xFF800000#32))
    (multiReduction .maximumf [2] S128x16 (scoresV X Mk) 0xFF800000#32 reduces_S128x16x16_S128x16 (.inl rfl) rfl)

/-- The exponentials of the scores less their row's maximum. -/
def expV : FVec Ideal S128x16x16 .f32 :=
  exp (subf (scoresV X Mk) (broadcastTo S128x16x16 (shapeCast S128x16x1 (rowMaxV X Mk) shapeCasts_S128x16_S128x16x1) broadcasts_S128x16x1_S128x16x16))

/-- The weights: each exponential over its row's sum. -/
def weightV : FVec Ideal S128x16x16 .f32 :=
  divf (expV X Mk) (broadcastTo S128x16x16 (shapeCast S128x16x1
    (multiReduction .add [2] S128x16 (expV X Mk) 0x00000000#32 reduces_S128x16x16_S128x16 (.inl rfl) rfl)
    shapeCasts_S128x16_S128x16x1) broadcasts_S128x16x1_S128x16x16)

/-- The last third's heads mixed by the weights. -/
def mixV : FVec Ideal S128x16x64 .f32 :=
  multiReduction .add [2] S128x16x64
    (mulf (broadcastTo S128x16x16x64 (shapeCast S128x16x16x1 (weightV X Mk) shapeCasts_S128x16x16_S128x16x16x1) broadcasts_S128x16x16x1_S128x16x16x64)
      (broadcastTo S128x16x16x64 (shapeCast S128x1x16x64 (thirdHeads X) shapeCasts_S128x16x64_S128x1x16x64) broadcasts_S128x1x16x64_S128x16x16x64))
    0x00000000#32 reduces_S128x16x16x64_S128x16x64 (.inl rfl) rfl

theorem firstHeads_apply (r : Fin 128) (h : Fin 16) (d : Fin 64) : firstHeads X (ix3 r h d) = X (ix2 r (colQ h d)) :=
  thirdAsHeads 0 X _ _ r h d (colQ h d) (by rw [colQ_val]; omega)
theorem secondHeads_apply (r : Fin 128) (g : Fin 16) (d : Fin 64) : secondHeads X (ix3 r g d) = X (ix2 r (colK g d)) :=
  thirdAsHeads 1024 X _ _ r g d (colK g d) (colK_val g d)
theorem thirdHeads_apply (r : Fin 128) (g : Fin 16) (d : Fin 64) : thirdHeads X (ix3 r g d) = X (ix2 r (colV g d)) :=
  thirdAsHeads 2048 X _ _ r g d (colV g d) (colV_val g d)

theorem scoresV_apply (r : Fin 128) (h g : Fin 16) :
    scoresV X Mk (ix3 r h g) = score (fun o => X (ix2 r o)) (fun h g => Mk (ix4 (0 : Fin 1) r h g)) h g := by
  unfold scoresV score
  refine congrArg₂ (fun a b : EReal => a * cScale + b)
    ((sumOverLanes _ reduces_S128x16x16x64_S128x16x16 (.inl rfl) rfl r h g).trans ?_)
    (maskRows Mk shapeCasts_S1x128x16x16_S128x16x16 r h g)
  refine Finset.sum_congr rfl fun d _ => ?_
  exact congrArg₂ (fun a b : EReal => a * b)
    ((alongSecondHead (firstHeads X) shapeCasts_S128x16x64_S128x16x1x64 broadcasts_S128x16x1x64_S128x16x16x64 r h g d).trans (firstHeads_apply X r h d))
    ((alongFirstHead (secondHeads X) shapeCasts_S128x16x64_S128x1x16x64 broadcasts_S128x1x16x64_S128x16x16x64 r h g d).trans (secondHeads_apply X r g d))

theorem rowMaxV_apply (r : Fin 128) (h : Fin 16) :
    rowMaxV X Mk (ix2 r h) = rowMax (score (fun o => X (ix2 r o)) (fun h g => Mk (ix4 (0 : Fin 1) r h g)) h) := by
  unfold rowMaxV rowMax
  refine congrArg (fun a : EReal => max cBot a)
    ((maxOverScores (scoresV X Mk) reduces_S128x16x16_S128x16 (.inl rfl) rfl r h).trans ?_)
  exact congrArg (fun f => (Finset.univ : Finset (Fin 16)).fold max cBot f) (funext fun g => scoresV_apply X Mk r h g)

theorem expV_apply (r : Fin 128) (h g : Fin 16) :
    expV X Mk (ix3 r h g) = expo (fun o => X (ix2 r o)) (fun h g => Mk (ix4 (0 : Fin 1) r h g)) h g := by
  unfold expV expo
  exact congrArg₂ (fun a b : EReal => Ideal.exp (a - b)) (scoresV_apply X Mk r h g)
    ((alongScores (rowMaxV X Mk) shapeCasts_S128x16_S128x16x1 broadcasts_S128x16x1_S128x16x16 r h g).trans (rowMaxV_apply X Mk r h))

theorem weightV_apply (r : Fin 128) (h g : Fin 16) :
    weightV X Mk (ix3 r h g) = weight (fun o => X (ix2 r o)) (fun h g => Mk (ix4 (0 : Fin 1) r h g)) h g := by
  unfold weightV weight
  refine congrArg₂ (fun a b : EReal => Ideal.div a b) (expV_apply X Mk r h g)
    ((alongScores _ shapeCasts_S128x16_S128x16x1 broadcasts_S128x16x1_S128x16x16 r h g).trans
      ((sumOverScores (expV X Mk) reduces_S128x16x16_S128x16 (.inl rfl) rfl r h).trans ?_))
  exact Finset.sum_congr rfl fun g' _ => expV_apply X Mk r h g'

theorem mixV_apply (r : Fin 128) (h : Fin 16) (d : Fin 64) :
    mixV X Mk (ix3 r h d) = mix (fun o => X (ix2 r o)) (fun h g => Mk (ix4 (0 : Fin 1) r h g)) h d := by
  unfold mixV mix
  refine (sumOverSecondHead _ reduces_S128x16x16x64_S128x16x64 (.inl rfl) rfl r h d).trans ?_
  refine Finset.sum_congr rfl fun g _ => ?_
  exact congrArg₂ (fun a b : EReal => a * b)
    ((alongLanes (weightV X Mk) shapeCasts_S128x16x16_S128x16x16x1 broadcasts_S128x16x16x1_S128x16x16x64 r h g d).trans (weightV_apply X Mk r h g))
    ((alongFirstHead (thirdHeads X) shapeCasts_S128x16x64_S128x1x16x64 broadcasts_S128x1x16x64_S128x16x16x64 r h g d).trans (thirdHeads_apply X r g d))

end Stages

/-! ## The body's stored value -/

/-- The stored value is the chain of stages over the projected block and the loaded mask block, flattened. -/
theorem stored_eq (P0 : Vec Ideal S1x128x1024 .f32) (P1 : Vec Ideal S1024x3072 .bf16) (P2 : Vec Ideal S1x3072 .f32)
    (P3 : Vec Ideal S1x128x16x16 .f32) :
    k0_pay1 (k0_pay3 P0 P1 P2) (k0_pay4 P0 P1 P2 P3)
      = shapeCast S1x128x1024 (shapeCast S128x1024 (mixV (k0_pay2 P0 P1 P2) P3) shapeCasts_S128x16x64_S128x1024) shapeCasts_S128x1024_S1x128x1024 := rfl

theorem block_eq (P0 : Vec Ideal S1x128x1024 .f32) (P1 : Vec Ideal S1024x3072 .bf16) (P2 : Vec Ideal S1x3072 .f32)
    (P3 : Vec Ideal S1x128x16x16 .f32) (r : Fin 128) (j : Fin 1024) :
    k0_pay1 (k0_pay3 P0 P1 P2) (k0_pay4 P0 P1 P2 P3) (ix3 (0 : Fin 1) r j)
      = Cert.HeadMix.token (fun k => P0 (ix3 (0 : Fin 1) r k)) (fun h g => P3 (ix4 (0 : Fin 1) r h g))
          (fun o k => P1 (ix2 k o)) (fun o => P2 (ix2 (0 : Fin 1) o)) j := by
  rw [stored_eq, flattenHeads, mixV_apply]
  unfold token
  exact congrArg (fun p => mix p (fun h g => P3 (ix4 (0 : Fin 1) r h g)) (headOf j) (laneOf j))
    (funext fun o => projected_apply P0 P1 P2 r o)

end Cert.BlockTokens

end
-- ==== Proof.ArrayTokens.lean ====
/-
  From the blocks to the whole array.

  The grid has 4 × 32 points. Point (b, s) works on tokens 128 s … 128 s + 127 of batch b: it is handed that block of
  128 query rows, the same tokens' 16 × 16 masks, the whole weight array and the whole bias row, and it writes back the
  block of 128 result rows. One stored row is the token function of its query row, its mask, the weights and the bias
  (the block statement). Here that is carried to the array: each loaded block is read back as the entries of the
  argument arrays it was cut from, so what a point writes back is its block of ONE function of the arguments, the
  token-by-token result; the 128 blocks tile the result array, so after the run the array is that function.

  Two of the loaded arrays are not arguments but were prepared from them before the grid starts. The weights arrive
  transposed and narrowed in format: entry (k, o) of what is loaded is entry (o, k) of the weight argument, the
  narrowing being the identity on extended reals. The bias arrives as a one-row matrix: entry (0, o) is entry o of the
  bias argument.
-/
import proofs.«142218_j52518860096440_1_alg».proof.Proof.Gen.KernelIdeal.Value
import proofs.«142218_j52518860096440_1_alg».proof.Proof.BlockTokens
import proofs.«142218_j52518860096440_1_alg».proof.Proof.HeadMix
import Idealize.ShloMosaic.Lib.ValueLayout
import Idealize.ShloMosaic.Lib.StableHlo.Run

noncomputable section

namespace Cert.ArrayTokens

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The two prepared arrays as functions of the arguments -/

/-- The weights the grid loads from: the weight argument transposed, then narrowed in format. -/
theorem weights_entry (c : Dev nD) : @Eq (S1024x3072.Idx → EReal) (V m c main_v1)
    (truncf (F := Ideal) (s := S1024x3072) (φ := .f32) .bf16 (transpose (s := S3072x1024) (α := EReal) S1024x3072 [1, 0] (m ((c : Thread nD τ).loc main_arg4)) transposes_S3072x1024_S1024x3072_1_0) bitsLt_bf16_f32) := by
  dsimp only [Gen.V, Gen.hostOps0]; after_results

/-- The bias the grid loads from: the bias argument laid out as one row. -/
theorem bias_entry (c : Dev nD) : @Eq (S1x3072.Idx → EReal) (V m c main_v2)
    (shapeCast (s := S3072) (α := EReal) S1x3072 (m ((c : Thread nD τ).loc main_arg5)) shapeCasts_S3072_S1x3072) := by
  dsimp only [Gen.V, Gen.hostOps0]; after_results; rfl

/-! ## Where each point's blocks lie -/

/-- At every grid point the query block and the mask block sit at the result block's batch and row-block position and
    at position 0 on their remaining axes; the weights and the bias are taken whole (position 0 on both axes); the
    result block's position is (batch ≤ 3, row block ≤ 31, 0). Checked point by point over the 128 points. -/
theorem blocks_follow : ∀ t : Fin cfg0.N, win0_0.index t (0 : Fin 3) = win0_4.index t (0 : Fin 3)
    ∧ win0_0.index t (1 : Fin 3) = win0_4.index t (1 : Fin 3)
    ∧ win0_0.index t (2 : Fin 3) = 0
    ∧ win0_1.index t (0 : Fin 4) = win0_4.index t (0 : Fin 3)
    ∧ win0_1.index t (1 : Fin 4) = win0_4.index t (1 : Fin 3)
    ∧ win0_1.index t (2 : Fin 4) = 0
    ∧ win0_1.index t (3 : Fin 4) = 0
    ∧ win0_2.index t (0 : Fin 2) = 0
    ∧ win0_2.index t (1 : Fin 2) = 0
    ∧ win0_3.index t (0 : Fin 2) = 0
    ∧ win0_3.index t (1 : Fin 2) = 0
    ∧ win0_4.index t (2 : Fin 3) = 0
    ∧ win0_4.index t (0 : Fin 3) ≤ 3
    ∧ win0_4.index t (1 : Fin 3) ≤ 31 :=
  (by decide +kernel : ∀ t : Fin grid0.N, _)

/-- Every (batch, row block) pair is some point's result position. -/
theorem every_tile_reached : ∀ (q0 : Fin 4) (q1 : Fin 32), ∃ t : Fin cfg0.N, win0_4.index t = ![q0.val, q1.val, 0] :=
  (by decide +kernel : ∀ (q0 : Fin 4) (q1 : Fin 32), ∃ t : Fin grid0.N, win0_4.index t = ![q0.val, q1.val, 0])

/-- The all-zero offsets of the body's loads and of its store, at ranks 2, 3 and 4. -/
theorem zeroOff2 : (![0, 0] : Fin 2 → Nat) = fun _ => 0 := funext fun a => by fin_cases a <;> rfl
theorem zeroOff3 : (![0, 0, 0] : Fin 3 → Nat) = fun _ => 0 := funext fun a => by fin_cases a <;> rfl
theorem zeroOff4 : (![0, 0, 0, 0] : Fin 4 → Nat) = fun _ => 0 := funext fun a => by fin_cases a <;> rfl

/-! ## One stored element, over arbitrary blocks and arrays -/

/-- If row `y 1` of the query block is row `(i 0, i 1)` of a query array, that row's mask block is the same token's mask
    in a mask array, the weight block read transposed is a weight array and the bias block's row is a bias array, and
    `y` and `i` name the same column, then the body's stored value at `y` is the result array's element at `i`:
    the block statement on one side, the result's definition on the other, the four functions equal argument by
    argument. -/
theorem stored_token (P0 : Vec Ideal S1x128x1024 .f32) (P1 : Vec Ideal S1024x3072 .bf16) (P2 : Vec Ideal S1x3072 .f32)
    (P3 : Vec Ideal S1x128x16x16 .f32)
    (Q : S4x4096x1024.Idx → EReal) (M : S4x4096x16x16.Idx → EReal) (W : S3072x1024.Idx → EReal) (B : S3072.Idx → EReal)
    (y : S1x128x1024.Idx) (i : S4x4096x1024.Idx)
    (hQ : ∀ k : Fin 1024, P0 (ix3 (0 : Fin 1) (y 1 : Fin 128) k) = Q (ix3 (i 0 : Fin 4) (i 1 : Fin 4096) k))
    (hM : ∀ h g : Fin 16, P3 (ix4 (0 : Fin 1) (y 1 : Fin 128) h g) = M (ix4 (i 0 : Fin 4) (i 1 : Fin 4096) h g))
    (hW : ∀ (o : Fin 3072) (k : Fin 1024), P1 (ix2 k o) = W (ix2 o k))
    (hB : ∀ o : Fin 3072, P2 (ix2 (0 : Fin 1) o) = B (ix1 o))
    (hj : (i 2 : Fin 1024) = (y 2 : Fin 1024)) :
    k0_pay1 (k0_pay3 P0 P1 P2) (k0_pay4 P0 P1 P2 P3) y = Cert.HeadMix.result Q M W B i := by
  -- the block has one slab, so its first coordinate is 0
  have hy : y = ix3 (0 : Fin 1) (y 1 : Fin 128) (y 2 : Fin 1024) := by
    funext a
    match a with
    | ⟨0, _⟩ => exact Fin.ext (by have h0 : (y 0).val < 1 := (y 0).isLt; show (y 0).val = 0; omega)
    | ⟨1, _⟩ => rfl
    | ⟨2, _⟩ => rfl
  refine (congrArg _ hy).trans ((Cert.BlockTokens.block_eq P0 P1 P2 P3 (y 1) (y 2)).trans ?_)
  have e0 : (fun k : Fin 1024 => P0 (ix3 (0 : Fin 1) (y 1 : Fin 128) k)) = fun k => Q (ix3 (i 0 : Fin 4) (i 1 : Fin 4096) k) := funext hQ
  have e3 : (fun h g : Fin 16 => P3 (ix4 (0 : Fin 1) (y 1 : Fin 128) h g)) = fun h g => M (ix4 (i 0 : Fin 4) (i 1 : Fin 4096) h g) :=
    funext fun h => funext fun g => hM h g
  have e1 : (fun (o : Fin 3072) (k : Fin 1024) => P1 (ix2 k o)) = fun o k => W (ix2 o k) := funext fun o => funext fun k => hW o k
  have e2 : (fun o : Fin 3072 => P2 (ix2 (0 : Fin 1) o)) = fun o => B (ix1 o) := funext hB
  rw [e0, e3, e1, e2, ← hj]
  rfl

/-! ## What a point writes back -/

/-- Point `t` writes back its block of the token-by-token result of the query and mask arrays as the grid finds them
    and of the weight and bias arguments. A block's coordinate on an axis is its position times the block's extent plus
    the coordinate inside the block, so with the positions related as `blocks_follow` says: row `r` of the query block
    and of the mask block is token (batch, 128 · row block + r), which is the row the result block's row `r` lands on;
    the weight and bias blocks are the whole prepared arrays, read through `weights_entry` and `bias_entry`. -/
theorem written_back (c : Dev nD) (t : Fin cfg0.N) :
    (dats m 0 c).flushed 4 t = ((cfg0.win 4).blk t).view.read (Elt Ideal)
      (Cert.HeadMix.result (V m c main_arg0) (V m c main_arg3) (m ((c : Thread nD τ).loc main_arg4)) (m ((c : Thread nD τ).loc main_arg5))) := by
  rw [Value.flushed4]
  unfold out0_4
  rw [View.canon_unit_zero zeroOff3]
  simp only [View.ld_unit_zero (S := S1x128x1024) zeroOff3, View.ld_unit_zero (S := S1024x3072) zeroOff2,
    View.ld_unit_zero (S := S1x3072) zeroOff2, View.ld_unit_zero (S := S1x128x16x16) zeroOff4]
  obtain ⟨e0, e1, e2, e3, e4, e5, e6, e7, e8, e9, e10, e11, e12, e13⟩ := blocks_follow t
  funext y
  have hy0 : (y 0).val < 1 := (y 0).isLt
  have hy1 : (y 1).val < 128 := (y 1).isLt
  have hy2 : (y 2).val < 1024 := (y 2).isLt
  refine stored_token (iblk m c 0 t) (iblk m c 2 t) (iblk m c 3 t) (iblk m c 1 t) (V m c main_arg0) (V m c main_arg3)
    (m ((c : Thread nD τ).loc main_arg4)) (m ((c : Thread nD τ).loc main_arg5)) y (((cfg0.win 4).blk t).view.emb y) ?_ ?_ ?_ ?_ ?_
  · -- the query row
    intro k
    show V m c main_arg0 (((cfg0.win 0).blk t).view.emb (ix3 (0 : Fin 1) (y 1 : Fin 128) k)) = _
    refine congrArg (V m c main_arg0) ?_
    funext a; apply Fin.ext
    match a with
    | ⟨0, _⟩ => show win0_0.index t (0 : Fin 3) * 1 + 1 * 0 = win0_4.index t (0 : Fin 3) * 1 + 1 * (y 0).val; omega
    | ⟨1, _⟩ => show win0_0.index t (1 : Fin 3) * 128 + 1 * (y 1).val = win0_4.index t (1 : Fin 3) * 128 + 1 * (y 1).val; omega
    | ⟨2, _⟩ => show win0_0.index t (2 : Fin 3) * 1024 + 1 * k.val = k.val; omega
  · -- the token's mask
    intro h g
    show V m c main_arg3 (((cfg0.win 1).blk t).view.emb (ix4 (0 : Fin 1) (y 1 : Fin 128) h g)) = _
    refine congrArg (V m c main_arg3) ?_
    funext a; apply Fin.ext
    match a with
    | ⟨0, _⟩ => show win0_1.index t (0 : Fin 4) * 1 + 1 * 0 = win0_4.index t (0 : Fin 3) * 1 + 1 * (y 0).val; omega
    | ⟨1, _⟩ => show win0_1.index t (1 : Fin 4) * 128 + 1 * (y 1).val = win0_4.index t (1 : Fin 3) * 128 + 1 * (y 1).val; omega
    | ⟨2, _⟩ => show win0_1.index t (2 : Fin 4) * 16 + 1 * h.val = h.val; omega
    | ⟨3, _⟩ => show win0_1.index t (3 : Fin 4) * 16 + 1 * g.val = g.val; omega
  · -- the weights: the whole prepared array, whose entry (k, o) is entry (o, k) of the argument
    intro o k
    show V m c main_v1 (((cfg0.win 2).blk t).view.emb (ix2 k o)) = _
    have hi : ((cfg0.win 2).blk t).view.emb (ix2 k o) = ix2 k o := by
      funext a; apply Fin.ext
      match a with
      | ⟨0, _⟩ => show win0_2.index t (0 : Fin 2) * 1024 + 1 * k.val = k.val; omega
      | ⟨1, _⟩ => show win0_2.index t (1 : Fin 2) * 3072 + 1 * o.val = o.val; omega
    refine (congrArg (V m c main_v1) hi).trans ((congrFun (weights_entry m c) (ix2 k o)).trans ?_)
    refine (truncf_apply (s := S1024x3072) (φ := .f32) (ψ := .bf16) _ bitsLt_bf16_f32 (ix2 k o)).trans ?_
    exact transpose_ix2_apply _ _ k o
  · -- the bias: the whole prepared row, whose entry (0, o) is entry o of the argument
    intro o
    show V m c main_v2 (((cfg0.win 3).blk t).view.emb (ix2 (0 : Fin 1) o)) = _
    have hi : ((cfg0.win 3).blk t).view.emb (ix2 (0 : Fin 1) o) = ix2 (0 : Fin 1) o := by
      funext a; apply Fin.ext
      match a with
      | ⟨0, _⟩ => show win0_3.index t (0 : Fin 2) * 1 + 1 * 0 = 0; omega
      | ⟨1, _⟩ => show win0_3.index t (1 : Fin 2) * 3072 + 1 * o.val = o.val; omega
    refine (congrArg (V m c main_v2) hi).trans ((congrFun (bias_entry m c) (ix2 (0 : Fin 1) o)).trans ?_)
    exact shapeCast_a_1a_apply _ _ 0 o
  · -- the column
    apply Fin.ext
    show win0_4.index t (2 : Fin 3) * 1024 + 1 * (y 2).val = (y 2).val
    omega

/-! ## The blocks tile the array -/

/-- An index of the result array is in point `t`'s block iff each coordinate is in the block's range on its axis. -/
theorem mem_tile (t : Fin cfg0.N) (i : S4x4096x1024.Idx) :
    i ∈ ((cfg0.win 4).blk t).view.set ↔ ∀ a : Fin 3, win0_4.index t a * S1x128x1024.size a ≤ (i a).val ∧ (i a).val < win0_4.index t a * S1x128x1024.size a + S1x128x1024.size a := by
  show i ∈ ((View.whole main_v3).slice (win0_4.rect t)).set ↔ _
  rw [View.set_slice_whole, Rect.mem_set_unit]
  exact Iff.rfl

/-- Every index (b, s, j) of the result array is in the block of the point whose result position is (b, s / 128, 0). -/
theorem tiles_cover (i : S4x4096x1024.Idx) : ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 1024 := (i 2).isLt
  obtain ⟨t, ht⟩ := every_tile_reached ⟨(i 0).val, hi0⟩ ⟨(i 1).val / 128, by omega⟩
  have q0 : win0_4.index t (0 : Fin 3) = (i 0).val := congrFun ht 0
  have q1 : win0_4.index t (1 : Fin 3) = (i 1).val / 128 := congrFun ht 1
  have q2 : win0_4.index t (2 : Fin 3) = 0 := congrFun ht 2
  refine ⟨t, flush0_4 t, ?_⟩
  rw [mem_tile]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 128 ≤ (i 1).val ∧ (i 1).val < win0_4.index t (1 : Fin 3) * 128 + 128; omega
  | ⟨2, _⟩ => show win0_4.index t (2 : Fin 3) * 1024 ≤ (i 2).val ∧ (i 2).val < win0_4.index t (2 : Fin 3) * 1024 + 1024; omega

/-! ## The array after the run, and the run -/

/-- The result array after the last point is the token-by-token result of the four arguments: every point writes back
    its block of that function and the blocks cover the array; the query and mask arrays are as launched when the grid
    starts, nothing before it writing them. -/
theorem final (c : Dev nD) : (dats m 0 c).arrAt 4 cfg0.N
      = Cert.HeadMix.result (m ((c : Thread nD τ).loc main_arg0)) (m ((c : Thread nD τ).loc main_arg3))
          (m ((c : Thread nD τ).loc main_arg4)) (m ((c : Thread nD τ).loc main_arg5)) := by
  rw [← V_main_arg0 m c, ← V_main_arg3 m c]
  exact (dats m 0 c).arrAt_eq_of_cover 4 _ (fun t _ => written_back m c t) tiles_cover

/-- Every run of the program ends with the result array at the token-by-token result of the arguments and with the six
    arguments unchanged. -/
theorem run : θ_run defs (onTc (τ := τ) (main (F := Ideal))) ⟨m, fun _ => 0, ρ⟩ fun r => ∀ c : Dev nD,
      r.2.mem ((c : Thread nD τ).loc main_v3) = Cert.HeadMix.result (m ((c : Thread nD τ).loc main_arg0)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.ArrayTokens

end
-- ==== Proof.lean ====
/-
  The kernel and the reference compute one function of the query, the mask, the weights and the bias.

  Both programs project each token's 1024 numbers to 3072 columns (a sum of products with the weights, plus the bias),
  read the columns as three blocks of 16 heads by 64 lanes, score every head of the first block against every head of the
  second (lane products summed, scaled by the same constant, plus the token's 16 × 16 mask), turn each row of sixteen
  scores into weights (subtract the row's maximum, exponentiate, divide by the row's sum) and mix the third block's heads
  by those weights. That function is written once, over plain index types, in HeadMix.lean.

  The reference is that function token by token: each of its operations is read at an index (RefTokens.lean). The kernel
  runs over a grid of 4 × 32 points; at each point it holds 128 tokens, and what it stores at a row of its block is that
  function of the row's token (BlockLayout.lean, BlockTokens.lean); the blocks tile the output array, so after the run the
  array is the function of the argument arrays (ArrayTokens.lean). The weights reach the kernel transposed and the bias
  as a one-row matrix; reading those back at an index gives the same weights and bias the reference uses.

  The two sides differ only in where the sums are taken and in which order, and an extended-real sum does not depend on
  its order; no step divides out or distributes a factor, so the inputs' finiteness is never used. The key and value
  arguments are read by neither program.

  The three frame statements come from the generated frame runs (the reference's is its generated run with the result
  dropped), and the idealized kernel is the kernel's own text read at the exact values, so nothing is owed for that step.
-/
import proofs.«142218_j52518860096440_1_alg».proof.Defs
import proofs.«142218_j52518860096440_1_alg».proof.Proof.Gen.Kernel
import proofs.«142218_j52518860096440_1_alg».proof.Proof.Gen.Kernel.Skeleton
import proofs.«142218_j52518860096440_1_alg».proof.Proof.Gen.Kernel.Launch
import proofs.«142218_j52518860096440_1_alg».proof.Proof.Gen.Kernel.Points
import proofs.«142218_j52518860096440_1_alg».proof.Proof.Gen.Kernel.Frame
import proofs.«142218_j52518860096440_1_alg».proof.Proof.Gen.KernelIdeal
import proofs.«142218_j52518860096440_1_alg».proof.Proof.Gen.KernelIdeal.Skeleton
import proofs.«142218_j52518860096440_1_alg».proof.Proof.Gen.KernelIdeal.Launch
import proofs.«142218_j52518860096440_1_alg».proof.Proof.Gen.KernelIdeal.Points
import proofs.«142218_j52518860096440_1_alg».proof.Proof.Gen.KernelIdeal.Frame
import proofs.«142218_j52518860096440_1_alg».proof.Proof.Gen.ReferenceIdeal
import proofs.«142218_j52518860096440_1_alg».proof.Proof.Gen.Pre_finite_inputs
import proofs.«142218_j52518860096440_1_alg».proof.Proof.Gen.KernelIdeal.Value
import proofs.«142218_j52518860096440_1_alg».proof.Proof.Gen.ReferenceIdeal.Run
import proofs.«142218_j52518860096440_1_alg».proof.Proof.Gen.ReferenceIdeal.Read
import proofs.«142218_j52518860096440_1_alg».proof.Proof.RefTokens
import proofs.«142218_j52518860096440_1_alg».proof.Proof.ArrayTokens
import Idealize.ShloMosaic.Adequacy
import Idealize.ShloMosaic.Init

noncomputable section

namespace Cert.Proof

open Idealize.ShloMosaic Idealize.ShloMosaic.TcCoe Idealize.SL.Sem

/-- The kernel's frame: its generated frame run. -/
theorem frame_kernel : Cert.frame_Kernel := fun m ρ _ => Cert.Kernel.Gen.frame m ρ

/-- The idealized kernel's frame likewise. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the token function of the query, the mask, the
    weights and the bias in their result arrays: the kernel's array by the blocks it wrote, the reference's by its
    operations read one at a time. -/
theorem algebraic : Cert.algebraic_KernelIdeal_ReferenceIdeal := by
  intro m ρ m' ρ' _ hagree
  refine ⟨fun c => Cert.HeadMix.result (m ((c : Thread Cert.KernelIdeal.nD Cert.KernelIdeal.τ).loc Cert.KernelIdeal.main_arg0))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5)),
    Cert.ArrayTokens.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.RefTokens.ref_eq, (hagree c).1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
